-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128x128 .f32) (main_arg9 : FVec F S128x128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S131072x128 .f32) (main_arg1 : FVec F S131072x128 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S131072x128 : Shape := ⟨2, ![131072, 128]⟩
abbrev S128x128 : Shape := ⟨2, ![128, 128]⟩
abbrev S128 : Shape := ⟨1, ![128]⟩
abbrev S128x384 : Shape := ⟨2, ![128, 384]⟩
abbrev S128x256 : Shape := ⟨2, ![128, 256]⟩
abbrev S1x128 : Shape := ⟨2, ![1, 128]⟩
abbrev S4096x128 : Shape := ⟨2, ![4096, 128]⟩
abbrev S4096x384 : Shape := ⟨2, ![4096, 384]⟩
abbrev S4096x256 : Shape := ⟨2, ![4096, 256]⟩

abbrev nBuf : Space → Nat
  | .hbm => 17
  | .vmem => 12
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S128x256, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S131072x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x384, .f32⟩
  | .local _ .vmem, ⟨5, _⟩ => ⟨S128x256, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x128_S128x128_S128x128_S128x384_d1 : Shape.Concatenates [S128x128, S128x128, S128x128] S128x384 1
  concatenates_S128x128_S128x128_S128x256_d1 : Shape.Concatenates [S128x128, S128x128] S128x256 1
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S4096x384_o0_0_S4096x128 : S4096x384.Slices ![0, 0] S4096x128
  slices_S4096x256_o0_0_S4096x128 : S4096x256.Slices ![0, 0] S4096x128
  broadcasts_S1x128_S4096x128 : S1x128.Broadcasts S4096x128
  slices_S4096x384_o0_128_S4096x128 : S4096x384.Slices ![0, 128] S4096x128
  slices_S4096x256_o0_128_S4096x128 : S4096x256.Slices ![0, 128] S4096x128
  slices_S4096x384_o0_256_S4096x128 : S4096x384.Slices ![0, 256] S4096x128
  dot_S4096x128_S128x384_S4096x384_1_0_0_1_n_n_wf : DotDims.WF S4096x128 S128x384 S4096x384 [1] [0] [0] [1] [] []
  dot_S4096x128_S128x256_S4096x256_1_0_0_1_n_n_wf : DotDims.WF S4096x128 S128x256 S4096x256 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S131072x128.size a
  hwx0_8 : ∀ i : grid0.Coords, EltTy.bits .f32 = 32 ∨ (Rect.block (s := S131072x128) S4096x128.size (cc0_transform_8 i) (hinb0_8 i)).WholeWords (EltTy.packing .f32)

variable [Facts₀]

def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S4096x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S128x384 : Shape := ⟨2, ![128, 384]⟩
abbrev S128x256 : Shape := ⟨2, ![128, 256]⟩
abbrev S131072x384 : Shape := ⟨2, ![131072, 384]⟩
abbrev S131072x256 : Shape := ⟨2, ![131072, 256]⟩
abbrev S1x128 : Shape := ⟨2, ![1, 128]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x384, .f32⟩
  | .hbm, ⟨12, _⟩ => ⟨S128x256, .f32⟩
  | .hbm, ⟨13, _⟩ => ⟨S131072x384, .f32⟩
  | .hbm, ⟨14, _⟩ => ⟨S131072x256, .f32⟩
  | .hbm, ⟨15, _⟩ => ⟨S131072x128, .f32⟩
  | .hbm, ⟨16, _⟩ => ⟨S131072x128, .f32⟩
  | .hbm, ⟨17, _⟩ => ⟨S131072x128, .f32⟩
  | .hbm, ⟨18, _⟩ => ⟨S1x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .f32⟩
  | .hbm, ⟨26, _⟩ => ⟨S_, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S1x128, .f32⟩
  | .hbm, ⟨33, _⟩ => ⟨S131072x128, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S_, .f32⟩
  | .hbm, ⟨38, _⟩ => ⟨S131072x128, .f32⟩
  | .hbm, ⟨39, _⟩ => ⟨S131072x128, .f32⟩
  | .hbm, ⟨40, _⟩ => ⟨S_, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | .hbm, ⟨46, _⟩ => ⟨S131072x128, .f32⟩
  | .hbm, ⟨47, _⟩ => ⟨S1x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S_, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  concatenates_S128x128_S128x128_S128x128_S128x384_d1 : Shape.Concatenates [S128x128, S128x128, S128x128] S128x384 1
  concatenates_S128x128_S128x128_S128x256_d1 : Shape.Concatenates [S128x128, S128x128] S128x256 1
  slices_S131072x384_S131072x128_0_0 : S131072x384.Slices ![0, 0] S131072x128
  slices_S131072x256_S131072x128_0_0 : S131072x256.Slices ![0, 0] S131072x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  slices_S131072x384_S131072x128_0_128 : S131072x384.Slices ![0, 128] S131072x128
  slices_S131072x256_S131072x128_0_128 : S131072x256.Slices ![0, 128] S131072x128
  slices_S131072x384_S131072x128_0_256 : S131072x384.Slices ![0, 256] S131072x128
  dot_S131072x128_S128x384_S131072x384_1_0_0_1_n_n_wf : DotDims.WF S131072x128 S128x384 S131072x384 [1] [0] [0] [1] [] []
  dot_S131072x128_S128x256_S131072x256_1_0_0_1_n_n_wf : DotDims.WF S131072x128 S128x256 S131072x256 [1] [0] [0] [1] [] []
  dot_S131072x128_S128x128_S131072x128_1_0_0_1_n_n_wf : DotDims.WF S131072x128 S128x128 S131072x128 [1] [0] [0] [1] [] []

variable [Facts₀]

def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def dot_S131072x128_S128x256_S131072x256_1_0_0_1_n_n : DotDims S131072x128 S128x256 S131072x256 where
  lhsContracting := [1]
  rhsContracting := [0]
  lhsNonContracting := [0]
  rhsNonContracting := [1]
  lhsBatch := []
  rhsBatch := []
  wf := dot_S131072x128_S128x256_S131072x256_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.CellFrameBits.lean ====
/-
  The GRU cell program runs to its end, faults nowhere and leaves its eleven argument arrays as they were.

  @main first builds, on the host, the two fused weight matrices W = [Wz | Wr | Wh] (128 x 384) and U = [Uz | Ur]
  (128 x 256) and the three biases as 1 x 128 rows; none of these five operations writes an argument array. The
  one pallas_call then walks the 131072 batch rows in 32 tiles of 4096 rows: at tile t it is handed rows
  [4096 t, 4096 (t+1)) of x and of h_prev, and the whole of W, U, Uh and the three bias rows (their block index
  never moves, so they are fetched once), and it overwrites the whole 4096 x 128 output tile by ONE store whose
  value is a pure function of those eight blocks. So the proof data is: every input window's buffer holds its
  block of the array as the region found it, the output window's buffer holds that function of the blocks, and
  nothing else is touched. The run is the pipeline library's frame run over that data; an argument that is a
  window's array is read back through the window, the others are among the buffers no window stages.
-/
import proofs.«122658_j39994735460383_1_alg».proof.Proof.Gen.Kernel.Launch
import proofs.«122658_j39994735460383_1_alg».proof.Proof.Gen.Kernel.Skeleton
import proofs.«122658_j39994735460383_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the pallas_call is entered: the launch contents after the two concatenations and the
    three reshapes. -/
abbrev atEntry (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is those five host operations and then the region. -/
theorem main_to_region (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostOps0_fresh) main_chain

/-- None of the five host operations before the region writes argument 0: the region finds it as launched. -/
theorem entry_main_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 1: the region finds it as launched. -/
theorem entry_main_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 2: the region finds it as launched. -/
theorem entry_main_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 3: the region finds it as launched. -/
theorem entry_main_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 4: the region finds it as launched. -/
theorem entry_main_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 5: the region finds it as launched. -/
theorem entry_main_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 6: the region finds it as launched. -/
theorem entry_main_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 7: the region finds it as launched. -/
theorem entry_main_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 8: the region finds it as launched. -/
theorem entry_main_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 9: the region finds it as launched. -/
theorem entry_main_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 10: the region finds it as launched. -/
theorem entry_main_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))

/-! ## A window's block at a tile -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! Each input window's current buffer holds its block at every tile, whether it was fetched there or (the block index
    not having moved) kept from the tile before: for any proof data over the entry arrays whose body leaves the
    block in place. -/
theorem held_0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem held_7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## From the pipeline's final state to the arguments -/

/-- For any proof data over the entry arrays, a final state with every window's array at what the data compute and
    every other buffer as the region found it has the eleven arguments as launched: x, h_prev and Uh are input
    windows' arrays (an input's array is never written back), the other eight are staged by no window. -/
theorem kept_in (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).2 main_arg2 (Pipeline.mem_restRefs_of main_arg2 (by decide) (by decide))).trans (entry_main_arg2 m c),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).1 4).trans (((dats 0 c).arrAt_in 4 rfl _).trans ((hA c 4).trans (entry_main_arg9 m c))),
      ((h c).2 main_arg10 (Pipeline.mem_restRefs_of main_arg10 (by decide) (by decide))).trans (entry_main_arg10 m c)⟩

/-- So a run to such states is a run that keeps the arguments. -/
theorem args_kept_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_in m dats hA r h c) h

/-! ## The body -/

/-- The whole of a 4096 x 128 tile, of W, of U, of Uh and of a bias row: every load and the one store of the body
    address a buffer whole. -/
abbrev wholeTile : Rect S4096x128 := Rect.unit (s := S4096x128) ![0, 0] S4096x128.size inb_S4096x128_S4096x128_0_0
abbrev wholeW : Rect S128x384 := Rect.unit (s := S128x384) ![0, 0] S128x384.size inb_S128x384_S128x384_0_0
abbrev wholeU : Rect S128x256 := Rect.unit (s := S128x256) ![0, 0] S128x256.size inb_S128x256_S128x256_0_0
abbrev wholeUh : Rect S128x128 := Rect.unit (s := S128x128) ![0, 0] S128x128.size inb_S128x128_S128x128_0_0
abbrev wholeRow : Rect S1x128 := Rect.unit (s := S1x128) ![0, 0] S1x128.size inb_S1x128_S1x128_0_0

/-- The new hidden state of one tile from the tile's rows of x and h_prev and from W, U, Uh and the bias rows:
    (1 - z) h + z tanh(..) with the update gate z and the candidate as the body computes them, written over the whole
    output buffer. -/
def newTile (x h : Vec F S4096x128 .f32) (W : Vec F S128x384 .f32) (U : Vec F S128x256 .f32) (Uh : Vec F S128x128 .f32)
    (bz br bh : Vec F S1x128 .f32) : Vec F S4096x128 .f32 :=
  View.canon [⟨wholeTile, k0_pay1 (View.ld h wholeTile)
    (k0_pay4 (View.ld x wholeTile) (View.ld h wholeTile) (View.ld W wholeW) (View.ld U wholeU) (View.ld bz wholeRow))
    (k0_pay5 (View.ld x wholeTile) (View.ld h wholeTile) (View.ld W wholeW) (View.ld U wholeU) (View.ld Uh wholeUh) (View.ld br wholeRow) (View.ld bh wholeRow))⟩]

/-- The one store covers the output buffer. -/
theorem store_covers (p0 : Vec F S4096x128 .f32) (y : S4096x128.Idx) :
    ∃ pc ∈ ([⟨wholeTile, p0⟩] : List (View.Piece (Elt F) S4096x128 .f32)), y ∈ pc.1.set :=
  View.cover_of_tiled [⟨wholeTile, p0⟩] S4096x128.size (by rfl) y

set_option maxHeartbeats 1000000 in
/-- The body on whole buffers, the eight inputs' at contents it only reads and the output's at anything, runs to
    the continuation with the inputs' as they were and the output's at `newTile` of them. -/
theorem body_triple (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S128x384 .f32) (harg3 : arg3.IsWhole) (arg4 : Memref sig .tc .vmem S128x256 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S4096x128 .f32) (harg9 : arg9.IsWhole)
    (x h : Vec F S4096x128 .f32) (W : Vec F S128x384 .f32) (U : Vec F S128x256 .f32) (Uh : Vec F S128x128 .f32) (bz br bh : Vec F S1x128 .f32)
    (K : PUnit → sProp 𝕄) :
    iprop(owns (c : Thread nD τ) arg1 fullShare x ∗ owns (c : Thread nD τ) arg2 fullShare h ∗ owns (c : Thread nD τ) arg3 fullShare W
        ∗ owns (c : Thread nD τ) arg4 fullShare U ∗ owns (c : Thread nD τ) arg5 fullShare Uh ∗ owns (c : Thread nD τ) arg6 fullShare bz
        ∗ owns (c : Thread nD τ) arg7 fullShare br ∗ owns (c : Thread nD τ) arg8 fullShare bh ∗ (∃ d, owns (c : Thread nD τ) arg9 fullShare d)
        ∗ (iprop(owns (c : Thread nD τ) arg1 fullShare x ∗ owns (c : Thread nD τ) arg2 fullShare h ∗ owns (c : Thread nD τ) arg3 fullShare W
            ∗ owns (c : Thread nD τ) arg4 fullShare U ∗ owns (c : Thread nD τ) arg5 fullShare Uh ∗ owns (c : Thread nD τ) arg6 fullShare bz
            ∗ owns (c : Thread nD τ) arg7 fullShare br ∗ owns (c : Thread nD τ) arg8 fullShare bh
            ∗ owns (c : Thread nD τ) arg9 fullShare (newTile x h W U Uh bz br bh)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (store_covers _)

/-! ## The proof data -/

/-- On core `c`: the arrays as the region finds them; after the body at tile `t` each input's buffer at its block
    and the output's at `newTile` of the eight blocks; no scratch, nothing owed, full shares. -/
def tiles (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => newTile (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem tiles_A (c : Dev nD) (w : Fin cfg0.W) : (tiles m 0 c).A w = atEntry m c (Pipeline.arrRef spec0 w) := by
  dsimp only [tiles]

theorem left_0 (c : Dev nD) (t : Fin cfg0.N) : (tiles m 0 c).after 0 t = blockAt m c 0 t := by dsimp only [tiles]
theorem left_1 (c : Dev nD) (t : Fin cfg0.N) : (tiles m 0 c).after 1 t = blockAt m c 1 t := by dsimp only [tiles]
theorem left_2 (c : Dev nD) (t : Fin cfg0.N) : (tiles m 0 c).after 2 t = blockAt m c 2 t := by dsimp only [tiles]
theorem left_3 (c : Dev nD) (t : Fin cfg0.N) : (tiles m 0 c).after 3 t = blockAt m c 3 t := by dsimp only [tiles]
theorem left_4 (c : Dev nD) (t : Fin cfg0.N) : (tiles m 0 c).after 4 t = blockAt m c 4 t := by dsimp only [tiles]
theorem left_5 (c : Dev nD) (t : Fin cfg0.N) : (tiles m 0 c).after 5 t = blockAt m c 5 t := by dsimp only [tiles]
theorem left_6 (c : Dev nD) (t : Fin cfg0.N) : (tiles m 0 c).after 6 t = blockAt m c 6 t := by dsimp only [tiles]
theorem left_7 (c : Dev nD) (t : Fin cfg0.N) : (tiles m 0 c).after 7 t = blockAt m c 7 t := by dsimp only [tiles]
theorem left_8 (c : Dev nD) (t : Fin cfg0.N) : (tiles m 0 c).after 8 t = newTile (blockAt m c 0 t) (blockAt m c 1 t) (blockAt m c 2 t) (blockAt m c 3 t) (blockAt m c 4 t) (blockAt m c 5 t) (blockAt m c 6 t) (blockAt m c 7 t) := by dsimp only [tiles]

theorem held_0 (c : Dev nD) (t : Fin cfg0.N) (d) : (tiles m 0 c).before 0 t d = blockAt m c 0 t :=
  held_0_of m (tiles m 0 c) (tiles_A m c 0) (left_0 m c) t d
theorem held_1 (c : Dev nD) (t : Fin cfg0.N) (d) : (tiles m 0 c).before 1 t d = blockAt m c 1 t :=
  held_1_of m (tiles m 0 c) (tiles_A m c 1) (left_1 m c) t d
theorem held_2 (c : Dev nD) (t : Fin cfg0.N) (d) : (tiles m 0 c).before 2 t d = blockAt m c 2 t :=
  held_2_of m (tiles m 0 c) (tiles_A m c 2) (left_2 m c) t d
theorem held_3 (c : Dev nD) (t : Fin cfg0.N) (d) : (tiles m 0 c).before 3 t d = blockAt m c 3 t :=
  held_3_of m (tiles m 0 c) (tiles_A m c 3) (left_3 m c) t d
theorem held_4 (c : Dev nD) (t : Fin cfg0.N) (d) : (tiles m 0 c).before 4 t d = blockAt m c 4 t :=
  held_4_of m (tiles m 0 c) (tiles_A m c 4) (left_4 m c) t d
theorem held_5 (c : Dev nD) (t : Fin cfg0.N) (d) : (tiles m 0 c).before 5 t d = blockAt m c 5 t :=
  held_5_of m (tiles m 0 c) (tiles_A m c 5) (left_5 m c) t d
theorem held_6 (c : Dev nD) (t : Fin cfg0.N) (d) : (tiles m 0 c).before 6 t d = blockAt m c 6 t :=
  held_6_of m (tiles m 0 c) (tiles_A m c 6) (left_6 m c) t d
theorem held_7 (c : Dev nD) (t : Fin cfg0.N) (d) : (tiles m 0 c).before 7 t d = blockAt m c 7 t :=
  held_7_of m (tiles m 0 c) (tiles_A m c 7) (left_7 m c) t d

/-! ## The body obligation at a tile -/

/-- What the body is handed at tile `t`, the windows one by one, -/
def handed (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d))
    ∗ (∃ d, owns (c : Thread nD τ) (st0_3 t) fullShare ((tiles m 0 c).before 3 t d))
    ∗ (∃ d, owns (c : Thread nD τ) (st0_4 t) fullShare ((tiles m 0 c).before 4 t d))
    ∗ (∃ d, owns (c : Thread nD τ) (st0_5 t) fullShare ((tiles m 0 c).before 5 t d))
    ∗ (∃ d, owns (c : Thread nD τ) (st0_6 t) fullShare ((tiles m 0 c).before 6 t d))
    ∗ (∃ d, owns (c : Thread nD τ) (st0_7 t) fullShare ((tiles m 0 c).before 7 t d))
    ∗ (∃ d, owns (c : Thread nD τ) (st0_8 t) fullShare ((tiles m 0 c).before 8 t d)))

/-- and what it hands back. -/
def returned (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t)
    ∗ owns (c : Thread nD τ) (st0_3 t) fullShare ((tiles m 0 c).after 3 t)
    ∗ owns (c : Thread nD τ) (st0_4 t) fullShare ((tiles m 0 c).after 4 t)
    ∗ owns (c : Thread nD τ) (st0_5 t) fullShare ((tiles m 0 c).after 5 t)
    ∗ owns (c : Thread nD τ) (st0_6 t) fullShare ((tiles m 0 c).after 6 t)
    ∗ owns (c : Thread nD τ) (st0_7 t) fullShare ((tiles m 0 c).after 7 t)
    ∗ owns (c : Thread nD τ) (st0_8 t) fullShare ((tiles m 0 c).after 8 t))

/-- The body at any tile: the inputs' buffers hold their blocks, so the body's triple applies; the invariant and the
    core's debts pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [held_0, held_1, held_2, held_3, held_4, held_5, held_6, held_7]
  rw [show (tiles m 0 c).Φ t.succ = (tiles m 0 c).Φ t.castSucc from rfl,
    show (tiles m 0 c).owesAt () t.succ = (tiles m 0 c).owesAt () t.castSucc from rfl,
    left_0, left_1, left_2, left_3, left_4, left_5, left_6, left_7, left_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_everywhere (c : Dev nD) : BodyObligation (tiles (F := F) m 0 c) (defs₀ (F := F)) Variants.none () Set.univ := fun t => by
  rw [bigSep_W0, bigSep_W0]
  exact body_at m c t

/-! ## The run -/

set_option backward.isDefEq.respectTransparency.types false in
/-- Every weakly fair execution of @main terminates, and every final state has each window's array at what the
    proof data compute (the output: the tiles written back one by one) and every other buffer as the region found it. -/
theorem run_to_tiles : θ_run defs (onTc (τ := τ) (main (F := F))) (s₀ m ρ) (Pipeline.FramePost cfgs (tiles m) 0 (atEntry m)) :=
  Pipeline.θ_run_frame cfgs (tiles m) (0 : Fin 1) launch0 defs₀ Variants.none m ρ main
    (hbody := fun c => (body_everywhere m c).loose) (hshare := fun c => (tiles m 0 c).share_full fun _ => rfl)
    (howed := fun _ _ => rfl) (V := atEntry m) (hmain := main_to_region m Variants.none) (hA := tiles_A m) (hΦ := fun _ _ => rfl)

/-- The program's frame, at any float instance. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  args_kept_of m ρ (tiles m) (tiles_A m) (run_to_tiles m ρ)

end Cert.Kernel.Cell

end
-- ==== Proof.CellFrameIdeal.lean ====
/-
  The GRU cell program runs to its end, faults nowhere and leaves its eleven argument arrays as they were.

  @main first builds, on the host, the two fused weight matrices W = [Wz | Wr | Wh] (128 x 384) and U = [Uz | Ur]
  (128 x 256) and the three biases as 1 x 128 rows; none of these five operations writes an argument array. The
  one pallas_call then walks the 131072 batch rows in 32 tiles of 4096 rows: at tile t it is handed rows
  [4096 t, 4096 (t+1)) of x and of h_prev, and the whole of W, U, Uh and the three bias rows (their block index
  never moves, so they are fetched once), and it overwrites the whole 4096 x 128 output tile by ONE store whose
  value is a pure function of those eight blocks. So the proof data is: every input window's buffer holds its
  block of the array as the region found it, the output window's buffer holds that function of the blocks, and
  nothing else is touched. The run is the pipeline library's frame run over that data; an argument that is a
  window's array is read back through the window, the others are among the buffers no window stages.
-/
import proofs.«122658_j39994735460383_1_alg».proof.Proof.Gen.KernelIdeal.Launch
import proofs.«122658_j39994735460383_1_alg».proof.Proof.Gen.KernelIdeal.Skeleton
import proofs.«122658_j39994735460383_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the pallas_call is entered: the launch contents after the two concatenations and the
    three reshapes. -/
abbrev atEntry (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is those five host operations and then the region. -/
theorem main_to_region (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostOps0_fresh) main_chain

/-- None of the five host operations before the region writes argument 0: the region finds it as launched. -/
theorem entry_main_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 1: the region finds it as launched. -/
theorem entry_main_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 2: the region finds it as launched. -/
theorem entry_main_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 3: the region finds it as launched. -/
theorem entry_main_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 4: the region finds it as launched. -/
theorem entry_main_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 5: the region finds it as launched. -/
theorem entry_main_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 6: the region finds it as launched. -/
theorem entry_main_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 7: the region finds it as launched. -/
theorem entry_main_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 8: the region finds it as launched. -/
theorem entry_main_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 9: the region finds it as launched. -/
theorem entry_main_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))
/-- None of the five host operations before the region writes argument 10: the region finds it as launched. -/
theorem entry_main_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall,
      StableHlo.nary_writes, StableHlo.binary_writes, StableHlo.reshape_writes, Finset.mem_singleton]
    repeat' apply And.intro
    all_goals exact StableHlo.devRef_ne_of_ne (by decide)))

/-! ## A window's block at a tile -/

/-- Window `w`'s block at tile `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! Each input window's current buffer holds its block at every tile, whether it was fetched there or (the block index
    not having moved) kept from the tile before: for any proof data over the entry arrays whose body leaves the
    block in place. -/
theorem held_0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem held_7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## From the pipeline's final state to the arguments -/

/-- For any proof data over the entry arrays, a final state with every window's array at what the data compute and
    every other buffer as the region found it has the eleven arguments as launched: x, h_prev and Uh are input
    windows' arrays (an input's array is never written back), the other eight are staged by no window. -/
theorem kept_in (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (entry_main_arg0 m c))),
      ((h c).1 1).trans (((dats 0 c).arrAt_in 1 rfl _).trans ((hA c 1).trans (entry_main_arg1 m c))),
      ((h c).2 main_arg2 (Pipeline.mem_restRefs_of main_arg2 (by decide) (by decide))).trans (entry_main_arg2 m c),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).1 4).trans (((dats 0 c).arrAt_in 4 rfl _).trans ((hA c 4).trans (entry_main_arg9 m c))),
      ((h c).2 main_arg10 (Pipeline.mem_restRefs_of main_arg10 (by decide) (by decide))).trans (entry_main_arg10 m c)⟩

/-- So a run to such states is a run that keeps the arguments. -/
theorem args_kept_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_in m dats hA r h c) h

/-! ## The body -/

/-- The whole of a 4096 x 128 tile, of W, of U, of Uh and of a bias row: every load and the one store of the body
    address a buffer whole. -/
abbrev wholeTile : Rect S4096x128 := Rect.unit (s := S4096x128) ![0, 0] S4096x128.size inb_S4096x128_S4096x128_0_0
abbrev wholeW : Rect S128x384 := Rect.unit (s := S128x384) ![0, 0] S128x384.size inb_S128x384_S128x384_0_0
abbrev wholeU : Rect S128x256 := Rect.unit (s := S128x256) ![0, 0] S128x256.size inb_S128x256_S128x256_0_0
abbrev wholeUh : Rect S128x128 := Rect.unit (s := S128x128) ![0, 0] S128x128.size inb_S128x128_S128x128_0_0
abbrev wholeRow : Rect S1x128 := Rect.unit (s := S1x128) ![0, 0] S1x128.size inb_S1x128_S1x128_0_0

/-- The new hidden state of one tile from the tile's rows of x and h_prev and from W, U, Uh and the bias rows:
    (1 - z) h + z tanh(..) with the update gate z and the candidate as the body computes them, written over the whole
    output buffer. -/
def newTile (x h : Vec F S4096x128 .f32) (W : Vec F S128x384 .f32) (U : Vec F S128x256 .f32) (Uh : Vec F S128x128 .f32)
    (bz br bh : Vec F S1x128 .f32) : Vec F S4096x128 .f32 :=
  View.canon [⟨wholeTile, k0_pay1 (View.ld h wholeTile)
    (k0_pay4 (View.ld x wholeTile) (View.ld h wholeTile) (View.ld W wholeW) (View.ld U wholeU) (View.ld bz wholeRow))
    (k0_pay5 (View.ld x wholeTile) (View.ld h wholeTile) (View.ld W wholeW) (View.ld U wholeU) (View.ld Uh wholeUh) (View.ld br wholeRow) (View.ld bh wholeRow))⟩]

/-- The one store covers the output buffer. -/
theorem store_covers (p0 : Vec F S4096x128 .f32) (y : S4096x128.Idx) :
    ∃ pc ∈ ([⟨wholeTile, p0⟩] : List (View.Piece (Elt F) S4096x128 .f32)), y ∈ pc.1.set :=
  View.cover_of_tiled [⟨wholeTile, p0⟩] S4096x128.size (by rfl) y

set_option maxHeartbeats 1000000 in
/-- The body on whole buffers, the eight inputs' at contents it only reads and the output's at anything, runs to
    the continuation with the inputs' as they were and the output's at `newTile` of them. -/
theorem body_triple (c : Dev nD) (E : Set ℕ) (i : grid0.Coords)
    (arg1 : Memref sig .tc .vmem S4096x128 .f32) (harg1 : arg1.IsWhole) (arg2 : Memref sig .tc .vmem S4096x128 .f32) (harg2 : arg2.IsWhole)
    (arg3 : Memref sig .tc .vmem S128x384 .f32) (harg3 : arg3.IsWhole) (arg4 : Memref sig .tc .vmem S128x256 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S4096x128 .f32) (harg9 : arg9.IsWhole)
    (x h : Vec F S4096x128 .f32) (W : Vec F S128x384 .f32) (U : Vec F S128x256 .f32) (Uh : Vec F S128x128 .f32) (bz br bh : Vec F S1x128 .f32)
    (K : PUnit → sProp 𝕄) :
    iprop(owns (c : Thread nD τ) arg1 fullShare x ∗ owns (c : Thread nD τ) arg2 fullShare h ∗ owns (c : Thread nD τ) arg3 fullShare W
        ∗ owns (c : Thread nD τ) arg4 fullShare U ∗ owns (c : Thread nD τ) arg5 fullShare Uh ∗ owns (c : Thread nD τ) arg6 fullShare bz
        ∗ owns (c : Thread nD τ) arg7 fullShare br ∗ owns (c : Thread nD τ) arg8 fullShare bh ∗ (∃ d, owns (c : Thread nD τ) arg9 fullShare d)
        ∗ (iprop(owns (c : Thread nD τ) arg1 fullShare x ∗ owns (c : Thread nD τ) arg2 fullShare h ∗ owns (c : Thread nD τ) arg3 fullShare W
            ∗ owns (c : Thread nD τ) arg4 fullShare U ∗ owns (c : Thread nD τ) arg5 fullShare Uh ∗ owns (c : Thread nD τ) arg6 fullShare bz
            ∗ owns (c : Thread nD τ) arg7 fullShare br ∗ owns (c : Thread nD τ) arg8 fullShare bh
            ∗ owns (c : Thread nD τ) arg9 fullShare (newTile x h W U Uh bz br bh)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (store_covers _)

/-! ## The proof data -/

/-- On core `c`: the arrays as the region finds them; after the body at tile `t` each input's buffer at its block
    and the output's at `newTile` of the eight blocks; no scratch, nothing owed, full shares. -/
def tiles (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => newTile (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem tiles_A (c : Dev nD) (w : Fin cfg0.W) : (tiles m 0 c).A w = atEntry m c (Pipeline.arrRef spec0 w) := by
  dsimp only [tiles]

theorem left_0 (c : Dev nD) (t : Fin cfg0.N) : (tiles m 0 c).after 0 t = blockAt m c 0 t := by dsimp only [tiles]
theorem left_1 (c : Dev nD) (t : Fin cfg0.N) : (tiles m 0 c).after 1 t = blockAt m c 1 t := by dsimp only [tiles]
theorem left_2 (c : Dev nD) (t : Fin cfg0.N) : (tiles m 0 c).after 2 t = blockAt m c 2 t := by dsimp only [tiles]
theorem left_3 (c : Dev nD) (t : Fin cfg0.N) : (tiles m 0 c).after 3 t = blockAt m c 3 t := by dsimp only [tiles]
theorem left_4 (c : Dev nD) (t : Fin cfg0.N) : (tiles m 0 c).after 4 t = blockAt m c 4 t := by dsimp only [tiles]
theorem left_5 (c : Dev nD) (t : Fin cfg0.N) : (tiles m 0 c).after 5 t = blockAt m c 5 t := by dsimp only [tiles]
theorem left_6 (c : Dev nD) (t : Fin cfg0.N) : (tiles m 0 c).after 6 t = blockAt m c 6 t := by dsimp only [tiles]
theorem left_7 (c : Dev nD) (t : Fin cfg0.N) : (tiles m 0 c).after 7 t = blockAt m c 7 t := by dsimp only [tiles]
theorem left_8 (c : Dev nD) (t : Fin cfg0.N) : (tiles m 0 c).after 8 t = newTile (blockAt m c 0 t) (blockAt m c 1 t) (blockAt m c 2 t) (blockAt m c 3 t) (blockAt m c 4 t) (blockAt m c 5 t) (blockAt m c 6 t) (blockAt m c 7 t) := by dsimp only [tiles]

theorem held_0 (c : Dev nD) (t : Fin cfg0.N) (d) : (tiles m 0 c).before 0 t d = blockAt m c 0 t :=
  held_0_of m (tiles m 0 c) (tiles_A m c 0) (left_0 m c) t d
theorem held_1 (c : Dev nD) (t : Fin cfg0.N) (d) : (tiles m 0 c).before 1 t d = blockAt m c 1 t :=
  held_1_of m (tiles m 0 c) (tiles_A m c 1) (left_1 m c) t d
theorem held_2 (c : Dev nD) (t : Fin cfg0.N) (d) : (tiles m 0 c).before 2 t d = blockAt m c 2 t :=
  held_2_of m (tiles m 0 c) (tiles_A m c 2) (left_2 m c) t d
theorem held_3 (c : Dev nD) (t : Fin cfg0.N) (d) : (tiles m 0 c).before 3 t d = blockAt m c 3 t :=
  held_3_of m (tiles m 0 c) (tiles_A m c 3) (left_3 m c) t d
theorem held_4 (c : Dev nD) (t : Fin cfg0.N) (d) : (tiles m 0 c).before 4 t d = blockAt m c 4 t :=
  held_4_of m (tiles m 0 c) (tiles_A m c 4) (left_4 m c) t d
theorem held_5 (c : Dev nD) (t : Fin cfg0.N) (d) : (tiles m 0 c).before 5 t d = blockAt m c 5 t :=
  held_5_of m (tiles m 0 c) (tiles_A m c 5) (left_5 m c) t d
theorem held_6 (c : Dev nD) (t : Fin cfg0.N) (d) : (tiles m 0 c).before 6 t d = blockAt m c 6 t :=
  held_6_of m (tiles m 0 c) (tiles_A m c 6) (left_6 m c) t d
theorem held_7 (c : Dev nD) (t : Fin cfg0.N) (d) : (tiles m 0 c).before 7 t d = blockAt m c 7 t :=
  held_7_of m (tiles m 0 c) (tiles_A m c 7) (left_7 m c) t d

/-! ## The body obligation at a tile -/

/-- What the body is handed at tile `t`, the windows one by one, -/
def handed (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d))
    ∗ (∃ d, owns (c : Thread nD τ) (st0_3 t) fullShare ((tiles m 0 c).before 3 t d))
    ∗ (∃ d, owns (c : Thread nD τ) (st0_4 t) fullShare ((tiles m 0 c).before 4 t d))
    ∗ (∃ d, owns (c : Thread nD τ) (st0_5 t) fullShare ((tiles m 0 c).before 5 t d))
    ∗ (∃ d, owns (c : Thread nD τ) (st0_6 t) fullShare ((tiles m 0 c).before 6 t d))
    ∗ (∃ d, owns (c : Thread nD τ) (st0_7 t) fullShare ((tiles m 0 c).before 7 t d))
    ∗ (∃ d, owns (c : Thread nD τ) (st0_8 t) fullShare ((tiles m 0 c).before 8 t d)))

/-- and what it hands back. -/
def returned (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t)
    ∗ owns (c : Thread nD τ) (st0_3 t) fullShare ((tiles m 0 c).after 3 t)
    ∗ owns (c : Thread nD τ) (st0_4 t) fullShare ((tiles m 0 c).after 4 t)
    ∗ owns (c : Thread nD τ) (st0_5 t) fullShare ((tiles m 0 c).after 5 t)
    ∗ owns (c : Thread nD τ) (st0_6 t) fullShare ((tiles m 0 c).after 6 t)
    ∗ owns (c : Thread nD τ) (st0_7 t) fullShare ((tiles m 0 c).after 7 t)
    ∗ owns (c : Thread nD τ) (st0_8 t) fullShare ((tiles m 0 c).after 8 t))

/-- The body at any tile: the inputs' buffers hold their blocks, so the body's triple applies; the invariant and the
    core's debts pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [held_0, held_1, held_2, held_3, held_4, held_5, held_6, held_7]
  rw [show (tiles m 0 c).Φ t.succ = (tiles m 0 c).Φ t.castSucc from rfl,
    show (tiles m 0 c).owesAt () t.succ = (tiles m 0 c).owesAt () t.castSucc from rfl,
    left_0, left_1, left_2, left_3, left_4, left_5, left_6, left_7, left_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple c Set.univ (grid0.coords t) _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_everywhere (c : Dev nD) : BodyObligation (tiles (F := F) m 0 c) (defs₀ (F := F)) Variants.none () Set.univ := fun t => by
  rw [bigSep_W0, bigSep_W0]
  exact body_at m c t

/-! ## The run -/

set_option backward.isDefEq.respectTransparency.types false in
/-- Every weakly fair execution of @main terminates, and every final state has each window's array at what the
    proof data compute (the output: the tiles written back one by one) and every other buffer as the region found it. -/
theorem run_to_tiles : θ_run defs (onTc (τ := τ) (main (F := F))) (s₀ m ρ) (Pipeline.FramePost cfgs (tiles m) 0 (atEntry m)) :=
  Pipeline.θ_run_frame cfgs (tiles m) (0 : Fin 1) launch0 defs₀ Variants.none m ρ main
    (hbody := fun c => (body_everywhere m c).loose) (hshare := fun c => (tiles m 0 c).share_full fun _ => rfl)
    (howed := fun _ _ => rfl) (V := atEntry m) (hmain := main_to_region m Variants.none) (hA := tiles_A m) (hΦ := fun _ _ => rfl)

/-- The program's frame, at any float instance. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  args_kept_of m ρ (tiles m) (tiles_A m) (run_to_tiles m ρ)

end Cert.KernelIdeal.Cell

end
-- ==== Proof.CellSpec.lean ====
/-
  One step of a gated recurrent unit, row by row, on the extended reals.

  For one batch row with input row x (128 entries) and previous hidden row h (128 entries), fused input weights
  W = [Wz | Wr | Wh] (128 x 384), fused hidden weights U = [Uz | Ur] (128 x 256), candidate weights Uh (128 x 128)
  and biases bz, br, bh:
      z_j  = sigma( (x W)_j        + (h U)_j        + bz_j )          the update gate
      r_j  = sigma( (x W)_{128+j}  + (h U)_{128+j}  + br_j )          the reset gate
      c_j  = tanh ( (x W)_{256+j}  + ((r * h) Uh)_j + bh_j )          the candidate
      h'_j = (1 - z_j) h_j + z_j c_j
  with sigma the logistic function 1 / (1 + e^(-t)) and every sum and product the exact one. A row of the result
  depends on that row of x and of h only, so the same function describes a tile of rows and the whole batch.
-/
import Idealize.ShloMosaic.PureOps.Ideal.Laws
import Idealize.ShloMosaic.Lib.ValueIdx

noncomputable section

namespace Cert.CellSpec

open Idealize.ShloMosaic Idealize.ShloMosaic.ValueIdx

abbrev Batch : Shape := ⟨2, ![131072, 128]⟩
abbrev FusedW : Shape := ⟨2, ![128, 384]⟩
abbrev FusedU : Shape := ⟨2, ![128, 256]⟩
abbrev Square : Shape := ⟨2, ![128, 128]⟩
abbrev Bias : Shape := ⟨1, ![128]⟩

/-- Column j of the first, second and third 128-column band of W, and of the two bands of U. -/
abbrev wBand0 (j : Fin 128) : Fin 384 := ⟨j.val, by have := j.isLt; omega⟩
abbrev wBand1 (j : Fin 128) : Fin 384 := ⟨128 + j.val, by have := j.isLt; omega⟩
abbrev wBand2 (j : Fin 128) : Fin 384 := ⟨256 + j.val, by have := j.isLt; omega⟩
abbrev uBand0 (j : Fin 128) : Fin 256 := ⟨j.val, by have := j.isLt; omega⟩
abbrev uBand1 (j : Fin 128) : Fin 256 := ⟨128 + j.val, by have := j.isLt; omega⟩

/-- A row times a column of W, of U, of Uh. -/
def timesW (v : Fin 128 → EReal) (W : FVec Ideal FusedW .f32) (c : Fin 384) : EReal := ∑ k : Fin 128, v k * W (ix2 k c)
def timesU (v : Fin 128 → EReal) (U : FVec Ideal FusedU .f32) (c : Fin 256) : EReal := ∑ k : Fin 128, v k * U (ix2 k c)
def timesUh (v : Fin 128 → EReal) (Uh : FVec Ideal Square .f32) (c : Fin 128) : EReal := ∑ k : Fin 128, v k * Uh (ix2 k c)

/-- The update gate of a row. -/
def update (x h : Fin 128 → EReal) (W : FVec Ideal FusedW .f32) (U : FVec Ideal FusedU .f32) (bz : Fin 128 → EReal) (j : Fin 128) : EReal :=
  Ideal.logistic (timesW x W (wBand0 j) + timesU h U (uBand0 j) + bz j)

/-- The reset gate of a row. -/
def reset (x h : Fin 128 → EReal) (W : FVec Ideal FusedW .f32) (U : FVec Ideal FusedU .f32) (br : Fin 128 → EReal) (j : Fin 128) : EReal :=
  Ideal.logistic (timesW x W (wBand1 j) + timesU h U (uBand1 j) + br j)

/-- The candidate state of a row: the reset gate scales h before it meets Uh. -/
def candidate (x h : Fin 128 → EReal) (W : FVec Ideal FusedW .f32) (U : FVec Ideal FusedU .f32) (Uh : FVec Ideal Square .f32)
    (br bh : Fin 128 → EReal) (j : Fin 128) : EReal :=
  Ideal.tanh (timesW x W (wBand2 j) + timesUh (fun k => reset x h W U br k * h k) Uh j + bh j)

/-- The new hidden row. The constant is the binary32 word of 1, the same word in both programs. -/
def newRow (x h : Fin 128 → EReal) (W : FVec Ideal FusedW .f32) (U : FVec Ideal FusedU .f32) (Uh : FVec Ideal Square .f32)
    (bz br bh : Fin 128 → EReal) (j : Fin 128) : EReal :=
  (Ideal.ofBits .f32 0x3F800000#32 - update x h W U bz j) * h j + update x h W U bz j * candidate x h W U Uh br bh j

/-- The whole batch: row by row. -/
def cell (x h : FVec Ideal Batch .f32) (W : FVec Ideal FusedW .f32) (U : FVec Ideal FusedU .f32) (Uh : FVec Ideal Square .f32)
    (bz br bh : FVec Ideal Bias .f32) : FVec Ideal Batch .f32 := fun i =>
  newRow (fun k => x (ix2 (i 0) k)) (fun k => h (ix2 (i 0) k)) W U Uh (fun k => bz (ix1 k)) (fun k => br (ix1 k)) (fun k => bh (ix1 k)) (i 1)

/-- The binary32 word 0x3F800000 is the number one. -/
theorem one_word : Ideal.ofBits .f32 0x3F800000#32 = 1 := by
  simp [Ideal.ofBits, Ideal.ieee, -EReal.coe_mul]; norm_num

/-- The logistic function is the quotient the host spells out: 1 / (1 + e^(-t)), with the word of one for each 1. -/
theorem logistic_spelt (t : EReal) :
    Ideal.div (Ideal.ofBits .f32 0x3F800000#32) (Ideal.ofBits .f32 0x3F800000#32 + Ideal.exp (-t)) = Ideal.logistic t := by
  rw [one_word]; rfl

end Cert.CellSpec

end
-- ==== Proof.CellTile.lean ====
/-
  One 4096-row tile of the kernel, read entry by entry on the extended reals.

  The body's value is built from three matrix products into zero accumulators — the tile of x times W, the tile of
  h times U, and (reset gate times h) times Uh —, 128-column bands cut out of the first two, the three bias rows
  repeated down the tile, the logistic function and tanh. A change of float format is the identity here, a product
  into zero is the plain sum over the contracted index, a band is a shift of the column, a repeated row is that
  row. So entry (p, j) of the tile is the specification's new hidden row computed from row p of the x tile and row p
  of the h tile.
-/
import proofs.«122658_j39994735460383_1_alg».proof.Proof.Gen.KernelIdeal.Skeleton
import proofs.«122658_j39994735460383_1_alg».proof.Proof.CellSpec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Cert.CellSpec
open Idealize.ShloMosaic Idealize.ShloMosaic.ValueIdx

/-! ## The three products at an entry -/

theorem lhsW_0 (i : S4096x384.Idx) (q : dot_S4096x128_S128x384_S4096x384_1_0_0_1_n_n.contr.Idx) :
    (dot_S4096x128_S128x384_S4096x384_1_0_0_1_n_n.lhsIdx i q 0).val = (i 0).val := by
  unfold DotDims.lhsIdx
  rw [dif_neg (show ¬(0 : Fin S4096x128.rank) ∈ dot_S4096x128_S128x384_S4096x384_1_0_0_1_n_n.lhsBatch by decide), dif_pos (show (0 : Fin S4096x128.rank) ∈ dot_S4096x128_S128x384_S4096x384_1_0_0_1_n_n.lhsNonContracting by decide)]
  rfl
theorem lhsW_1 (i : S4096x384.Idx) (q : dot_S4096x128_S128x384_S4096x384_1_0_0_1_n_n.contr.Idx) :
    (dot_S4096x128_S128x384_S4096x384_1_0_0_1_n_n.lhsIdx i q 1).val = (q ⟨0, by decide⟩).val :=
  dot_S4096x128_S128x384_S4096x384_1_0_0_1_n_n.lhsIdx_val_of_single rfl i q
theorem rhsW_0 (i : S4096x384.Idx) (q : dot_S4096x128_S128x384_S4096x384_1_0_0_1_n_n.contr.Idx) :
    (dot_S4096x128_S128x384_S4096x384_1_0_0_1_n_n.rhsIdx i q 0).val = (q ⟨0, by decide⟩).val :=
  dot_S4096x128_S128x384_S4096x384_1_0_0_1_n_n.rhsIdx_val_of_single rfl i q
theorem rhsW_1 (i : S4096x384.Idx) (q : dot_S4096x128_S128x384_S4096x384_1_0_0_1_n_n.contr.Idx) :
    (dot_S4096x128_S128x384_S4096x384_1_0_0_1_n_n.rhsIdx i q 1).val = (i 1).val := by
  unfold DotDims.rhsIdx
  rw [dif_neg (show ¬(1 : Fin S128x384.rank) ∈ dot_S4096x128_S128x384_S4096x384_1_0_0_1_n_n.rhsBatch by decide), dif_pos (show (1 : Fin S128x384.rank) ∈ dot_S4096x128_S128x384_S4096x384_1_0_0_1_n_n.rhsNonContracting by decide)]
  rfl

/-- A 4096 x 128 block times a 128 x 384 matrix into zero, at row p and column c: the sum over the 128 contracted entries. -/
theorem matmulW_at (l : FVec Ideal S4096x128 .bf16) (r : FVec Ideal S128x384 .bf16) (p : Fin 4096) (c : Fin 384) :
    matmul dot_S4096x128_S128x384_S4096x384_1_0_0_1_n_n none l r (constant (F := Ideal) S4096x384 .f32 0x00000000#32) (ix2 p c) = ∑ k : Fin 128, l (ix2 p k) * r (ix2 k c) := by
  refine (Ideal.matmul_constant_zero_apply dot_S4096x128_S128x384_S4096x384_1_0_0_1_n_n none l r (ix2 p c)).trans ?_
  rw [← Equiv.sum_comp (contrEquiv1 dot_S4096x128_S128x384_S4096x384_1_0_0_1_n_n 128 rfl rfl).symm]
  refine Finset.sum_congr rfl fun k _ => ?_
  have hk := contrEquiv1_symm_val dot_S4096x128_S128x384_S4096x384_1_0_0_1_n_n 128 rfl rfl k
  have el : dot_S4096x128_S128x384_S4096x384_1_0_0_1_n_n.lhsIdx (ix2 p c) ((contrEquiv1 dot_S4096x128_S128x384_S4096x384_1_0_0_1_n_n 128 rfl rfl).symm k) = ix2 p k := funext fun a => Fin.ext (by
    match a with
    | ⟨0, _⟩ => exact lhsW_0 _ _
    | ⟨1, _⟩ => exact (lhsW_1 _ _).trans hk)
  have er : dot_S4096x128_S128x384_S4096x384_1_0_0_1_n_n.rhsIdx (ix2 p c) ((contrEquiv1 dot_S4096x128_S128x384_S4096x384_1_0_0_1_n_n 128 rfl rfl).symm k) = ix2 k c := funext fun a => Fin.ext (by
    match a with
    | ⟨0, _⟩ => exact (rhsW_0 _ _).trans hk
    | ⟨1, _⟩ => exact rhsW_1 _ _)
  rw [el, er]

theorem lhsU_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhsU_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhsU_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhsU_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- A 4096 x 128 block times a 128 x 256 matrix into zero, at row p and column c: the sum over the 128 contracted entries. -/
theorem matmulU_at (l : FVec Ideal S4096x128 .bf16) (r : FVec Ideal S128x256 .bf16) (p : Fin 4096) (c : Fin 256) :
    matmul dot_S4096x128_S128x256_S4096x256_1_0_0_1_n_n none l r (constant (F := Ideal) S4096x256 .f32 0x00000000#32) (ix2 p c) = ∑ k : Fin 128, l (ix2 p k) * r (ix2 k c) := by
  refine (Ideal.matmul_constant_zero_apply dot_S4096x128_S128x256_S4096x256_1_0_0_1_n_n none l r (ix2 p c)).trans ?_
  rw [← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p c) ((contrEquiv1 dot_S4096x128_S128x256_S4096x256_1_0_0_1_n_n 128 rfl rfl).symm k) = ix2 p k := funext fun a => Fin.ext (by
    match a with
    | ⟨0, _⟩ => exact lhsU_0 _ _
    | ⟨1, _⟩ => exact (lhsU_1 _ _).trans hk)
  have er : dot_S4096x128_S128x256_S4096x256_1_0_0_1_n_n.rhsIdx (ix2 p c) ((contrEquiv1 dot_S4096x128_S128x256_S4096x256_1_0_0_1_n_n 128 rfl rfl).symm k) = ix2 k c := funext fun a => Fin.ext (by
    match a with
    | ⟨0, _⟩ => exact (rhsU_0 _ _).trans hk
    | ⟨1, _⟩ => exact rhsU_1 _ _)
  rw [el, er]

theorem lhsH_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsH_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhsH_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhsH_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A 4096 x 128 block times a 128 x 128 matrix into zero, at row p and column c: the sum over the 128 contracted entries. -/
theorem matmulH_at (l : FVec Ideal S4096x128 .bf16) (r : FVec Ideal S128x128 .bf16) (p : Fin 4096) (c : Fin 128) :
    matmul dot_S4096x128_S128x128_S4096x128_1_0_0_1_n_n none l r (constant (F := Ideal) S4096x128 .f32 0x00000000#32) (ix2 p c) = ∑ k : Fin 128, l (ix2 p k) * r (ix2 k c) := by
  refine (Ideal.matmul_constant_zero_apply dot_S4096x128_S128x128_S4096x128_1_0_0_1_n_n none l r (ix2 p c)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p c) ((contrEquiv1 dot_S4096x128_S128x128_S4096x128_1_0_0_1_n_n 128 rfl rfl).symm k) = ix2 p k := funext fun a => Fin.ext (by
    match a with
    | ⟨0, _⟩ => exact lhsH_0 _ _
    | ⟨1, _⟩ => exact (lhsH_1 _ _).trans hk)
  have er : dot_S4096x128_S128x128_S4096x128_1_0_0_1_n_n.rhsIdx (ix2 p c) ((contrEquiv1 dot_S4096x128_S128x128_S4096x128_1_0_0_1_n_n 128 rfl rfl).symm k) = ix2 k c := funext fun a => Fin.ext (by
    match a with
    | ⟨0, _⟩ => exact (rhsH_0 _ _).trans hk
    | ⟨1, _⟩ => exact rhsH_1 _ _)
  rw [el, er]

/-! ## Bands and bias rows at an entry -/

theorem bandW0 (v : FVec Ideal S4096x384 .f32) (h : S4096x384.Slices ![0, 0] S4096x128) (p : Fin 4096) (j : Fin 128) :
    extractStridedSlice S4096x128 ![0, 0] v h (ix2 p j) = v (ix2 p (wBand0 j)) :=
  extractStridedSlice_apply ![0, 0] v h (ix2 p j) (ix2 p (wBand0 j)) (fun a => match a with
    | ⟨0, _⟩ => by show p.val = 0 + p.val; omega
    | ⟨1, _⟩ => by show j.val = 0 + j.val; omega)
theorem bandW1 (v : FVec Ideal S4096x384 .f32) (h : S4096x384.Slices ![0, 128] S4096x128) (p : Fin 4096) (j : Fin 128) :
    extractStridedSlice S4096x128 ![0, 128] v h (ix2 p j) = v (ix2 p (wBand1 j)) :=
  extractStridedSlice_apply ![0, 128] v h (ix2 p j) (ix2 p (wBand1 j)) (fun a => match a with
    | ⟨0, _⟩ => by show p.val = 0 + p.val; omega
    | ⟨1, _⟩ => by show 128 + j.val = 128 + j.val; rfl)
theorem bandW2 (v : FVec Ideal S4096x384 .f32) (h : S4096x384.Slices ![0, 256] S4096x128) (p : Fin 4096) (j : Fin 128) :
    extractStridedSlice S4096x128 ![0, 256] v h (ix2 p j) = v (ix2 p (wBand2 j)) :=
  extractStridedSlice_apply ![0, 256] v h (ix2 p j) (ix2 p (wBand2 j)) (fun a => match a with
    | ⟨0, _⟩ => by show p.val = 0 + p.val; omega
    | ⟨1, _⟩ => by show 256 + j.val = 256 + j.val; rfl)
theorem bandU0 (v : FVec Ideal S4096x256 .f32) (h : S4096x256.Slices ![0, 0] S4096x128) (p : Fin 4096) (j : Fin 128) :
    extractStridedSlice S4096x128 ![0, 0] v h (ix2 p j) = v (ix2 p (uBand0 j)) :=
  extractStridedSlice_apply ![0, 0] v h (ix2 p j) (ix2 p (uBand0 j)) (fun a => match a with
    | ⟨0, _⟩ => by show p.val = 0 + p.val; omega
    | ⟨1, _⟩ => by show j.val = 0 + j.val; omega)
theorem bandU1 (v : FVec Ideal S4096x256 .f32) (h : S4096x256.Slices ![0, 128] S4096x128) (p : Fin 4096) (j : Fin 128) :
    extractStridedSlice S4096x128 ![0, 128] v h (ix2 p j) = v (ix2 p (uBand1 j)) :=
  extractStridedSlice_apply ![0, 128] v h (ix2 p j) (ix2 p (uBand1 j)) (fun a => match a with
    | ⟨0, _⟩ => by show p.val = 0 + p.val; omega
    | ⟨1, _⟩ => by show 128 + j.val = 128 + j.val; rfl)

/-- A 1 x 128 row repeated down the tile, at (p, j), is the row's entry j. -/
theorem rowDown (b : FVec Ideal S1x128 .f32) (hsc : S1x128.ShapeCasts S1x128) (hbc : S1x128.Broadcasts S4096x128) (p : Fin 4096) (j : Fin 128) :
    broadcastTo S4096x128 (shapeCast S1x128 b hsc) hbc (ix2 p j) = b (ix2 (0 : Fin 1) j) := by
  rw [shapeCast_self]
  exact broadcastTo_apply b hbc (ix2 p j) (ix2 (0 : Fin 1) j) (fun a => match a with
    | ⟨0, _⟩ => by show (0 : Nat) = if (1 : Nat) = 1 then 0 else _; rw [if_pos rfl]
    | ⟨1, _⟩ => by show j.val = if (128 : Nat) = 1 then 0 else j.val; rw [if_neg (by decide)])

/-! ## The payloads at an entry -/

variable (xb hb : FVec Ideal S4096x128 .f32) (Wb : FVec Ideal S128x384 .f32) (Ub : FVec Ideal S128x256 .f32)
  (Uhb : FVec Ideal S128x128 .f32) (bzb brb bhb : FVec Ideal S1x128 .f32)

/-- The x tile times W. -/
theorem xW_at (p : Fin 4096) (c : Fin 384) :
    k0_pay2 (F := Ideal) xb Wb (ix2 p c) = timesW (fun k => xb (ix2 p k)) Wb c := by
  unfold k0_pay2 timesW
  refine (matmulW_at _ _ p c).trans ?_
  refine Finset.sum_congr rfl fun k _ => ?_
  show xb (ix2 p k) * shapeCast S128x384 Wb _ (ix2 k c) = _
  rw [shapeCast_self]

/-- The h tile times U. -/
theorem hU_at (p : Fin 4096) (c : Fin 256) :
    k0_pay3 (F := Ideal) hb Ub (ix2 p c) = timesU (fun k => hb (ix2 p k)) Ub c := by
  unfold k0_pay3 timesU
  refine (matmulU_at _ _ p c).trans ?_
  refine Finset.sum_congr rfl fun k _ => ?_
  show hb (ix2 p k) * shapeCast S128x256 Ub _ (ix2 k c) = _
  rw [shapeCast_self]

/-- The update gate of the tile. -/
theorem update_at (p : Fin 4096) (j : Fin 128) :
    k0_pay4 (F := Ideal) xb hb Wb Ub bzb (ix2 p j)
      = update (fun k => xb (ix2 p k)) (fun k => hb (ix2 p k)) Wb Ub (fun k => bzb (ix2 (0 : Fin 1) k)) j := by
  unfold k0_pay4 update
  show Ideal.logistic (extractStridedSlice S4096x128 ![0, 0] (k0_pay2 (F := Ideal) xb Wb) _ (ix2 p j)
      + extractStridedSlice S4096x128 ![0, 0] (k0_pay3 (F := Ideal) hb Ub) _ (ix2 p j)
      + broadcastTo S4096x128 (shapeCast S1x128 bzb _) _ (ix2 p j)) = _
  rw [bandW0, bandU0, rowDown, xW_at, hU_at]

/-- The reset gate of the tile, as the candidate's payload spells it. -/
theorem reset_at (hW : S4096x384.Slices ![0, 128] S4096x128) (hU : S4096x256.Slices ![0, 128] S4096x128)
    (hsc : S1x128.ShapeCasts S1x128) (hbc : S1x128.Broadcasts S4096x128) (p : Fin 4096) (k : Fin 128) :
    logistic (addf (addf (extractStridedSlice S4096x128 ![0, 128] (k0_pay2 (F := Ideal) xb Wb) hW)
        (extractStridedSlice S4096x128 ![0, 128] (k0_pay3 (F := Ideal) hb Ub) hU))
        (broadcastTo S4096x128 (shapeCast S1x128 brb hsc) hbc)) (ix2 p k)
      = reset (fun k => xb (ix2 p k)) (fun k => hb (ix2 p k)) Wb Ub (fun k => brb (ix2 (0 : Fin 1) k)) k := by
  unfold reset
  show Ideal.logistic (extractStridedSlice S4096x128 ![0, 128] (k0_pay2 (F := Ideal) xb Wb) hW (ix2 p k)
      + extractStridedSlice S4096x128 ![0, 128] (k0_pay3 (F := Ideal) hb Ub) hU (ix2 p k)
      + broadcastTo S4096x128 (shapeCast S1x128 brb hsc) hbc (ix2 p k)) = _
  rw [bandW1, bandU1, rowDown, xW_at, hU_at]

/-- The candidate state of the tile. -/
theorem candidate_at (p : Fin 4096) (j : Fin 128) :
    k0_pay5 (F := Ideal) xb hb Wb Ub Uhb brb bhb (ix2 p j)
      = candidate (fun k => xb (ix2 p k)) (fun k => hb (ix2 p k)) Wb Ub Uhb (fun k => brb (ix2 (0 : Fin 1) k)) (fun k => bhb (ix2 (0 : Fin 1) k)) j := by
  unfold k0_pay5 candidate
  show Ideal.tanh (extractStridedSlice S4096x128 ![0, 256] (k0_pay2 (F := Ideal) xb Wb) _ (ix2 p j)
      + matmul dot_S4096x128_S128x128_S4096x128_1_0_0_1_n_n none _ _ (constant (F := Ideal) S4096x128 .f32 0x00000000#32) (ix2 p j)
      + broadcastTo S4096x128 (shapeCast S1x128 bhb _) _ (ix2 p j)) = _
  rw [bandW2, rowDown, xW_at, matmulH_at]
  unfold timesUh
  refine congrArg (fun s => Ideal.tanh (_ + s + _)) (Finset.sum_congr rfl fun k _ => ?_)
  show logistic _ (ix2 p k) * hb (ix2 p k) * Uhb (ix2 k j) = _
  rw [reset_at]

/-- Entry (p, j) of the stored tile: the new hidden row from row p of the two tiles. -/
theorem stored_at (p : Fin 4096) (j : Fin 128) :
    k0_pay1 (F := Ideal) hb (k0_pay4 (F := Ideal) xb hb Wb Ub bzb) (k0_pay5 (F := Ideal) xb hb Wb Ub Uhb brb bhb) (ix2 p j)
      = newRow (fun k => xb (ix2 p k)) (fun k => hb (ix2 p k)) Wb Ub Uhb
          (fun k => bzb (ix2 (0 : Fin 1) k)) (fun k => brb (ix2 (0 : Fin 1) k)) (fun k => bhb (ix2 (0 : Fin 1) k)) j := by
  unfold k0_pay1 newRow
  show (Ideal.ofBits .f32 0x3F800000#32 - k0_pay4 (F := Ideal) xb hb Wb Ub bzb (ix2 p j)) * hb (ix2 p j)
      + k0_pay4 (F := Ideal) xb hb Wb Ub bzb (ix2 p j) * k0_pay5 (F := Ideal) xb hb Wb Ub Uhb brb bhb (ix2 p j) = _
  rw [update_at, candidate_at]

end Cert.KernelIdeal.Tile

end
-- ==== Proof.CellArray.lean ====
/-
  From tiles to the whole batch: after the run the kernel's result array is the specification's cell.

  Tile t of the pallas_call reads rows [4096 t, 4096 t + 4096) of x and of h_prev and the whole of W, U, Uh and of
  the three bias rows, where W = [Wz | Wr | Wh], U = [Uz | Ur] and the bias rows are the bias vectors laid out as
  1 x 128, all as the five host operations before the call leave them. Its stored tile, entry (p, j), is the new
  hidden row of batch row 4096 t + p; so what tile t writes back is block t of the cell function of the eleven
  arguments. The 32 blocks cover all 131072 rows (row b lies in tile b / 4096), hence the array ends at the cell
  function everywhere.
-/
import proofs.«122658_j39994735460383_1_alg».proof.Proof.CellFrameIdeal
import proofs.«122658_j39994735460383_1_alg».proof.Proof.CellTile
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Cell Cert.KernelIdeal.Tile Cert.CellSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host operations leave for the call -/

/-- W = [Wz | Wr | Wh] and U = [Uz | Ur] of the launch contents. -/
def fusedW (c : Dev nD) : FVec Ideal S128x384 .f32 :=
  concatenate S128x384 1 [⟨S128x128, (m ((c : Thread nD τ).loc main_arg2))⟩, ⟨S128x128, (m ((c : Thread nD τ).loc main_arg5))⟩, ⟨S128x128, (m ((c : Thread nD τ).loc main_arg8))⟩] concatenates_S128x128_S128x128_S128x128_S128x384_d1
def fusedU (c : Dev nD) : FVec Ideal S128x256 .f32 :=
  concatenate S128x256 1 [⟨S128x128, (m ((c : Thread nD τ).loc main_arg3))⟩, ⟨S128x128, (m ((c : Thread nD τ).loc main_arg6))⟩] concatenates_S128x128_S128x128_S128x256_d1

theorem entry_W (c : Dev nD) : (atEntry m c main_v0 : FVec Ideal S128x384 .f32) = fusedW m c := by
  unfold fusedW
  dsimp only [atEntry]
  simp only [hostOps0, List.flatten_cons, List.flatten_nil, List.append_nil, List.cons_append, List.nil_append]
  after_results; rfl
theorem entry_U (c : Dev nD) : (atEntry m c main_v1 : FVec Ideal S128x256 .f32) = fusedU m c := by
  unfold fusedU
  dsimp only [atEntry]
  simp only [hostOps0, List.flatten_cons, List.flatten_nil, List.append_nil, List.cons_append, List.nil_append]
  after_results
theorem entry_bz (c : Dev nD) : (atEntry m c main_v2 : FVec Ideal S1x128 .f32) = shapeCast S1x128 (m ((c : Thread nD τ).loc main_arg4)) shapeCasts_S128_S1x128 := by
  dsimp only [atEntry]
  simp only [hostOps0, List.flatten_cons, List.flatten_nil, List.append_nil, List.cons_append, List.nil_append]
  after_results; rfl
theorem entry_br (c : Dev nD) : (atEntry m c main_v3 : FVec Ideal S1x128 .f32) = shapeCast S1x128 (m ((c : Thread nD τ).loc main_arg7)) shapeCasts_S128_S1x128 := by
  dsimp only [atEntry]
  simp only [hostOps0, List.flatten_cons, List.flatten_nil, List.append_nil, List.cons_append, List.nil_append]
  after_results; rfl
theorem entry_bh (c : Dev nD) : (atEntry m c main_v4 : FVec Ideal S1x128 .f32) = shapeCast S1x128 (m ((c : Thread nD τ).loc main_arg10)) shapeCasts_S128_S1x128 := by
  dsimp only [atEntry]
  simp only [hostOps0, List.flatten_cons, List.flatten_nil, List.append_nil, List.cons_append, List.nil_append]
  after_results; rfl

/-- A 128-vector laid out as one row: entry (0, k) of the row is entry k of the vector. -/
theorem row_of_vector (b : FVec Ideal S128 .f32) (h : S128.ShapeCasts S1x128) (k : Fin 128) :
    shapeCast S1x128 b h (ix2 (0 : Fin 1) k) = b (ix1 k) :=
  shapeCast_apply b h (ix2 (0 : Fin 1) k) (ix1 k) (by
    rw [Shape.rowMajor_val_two, Shape.rowMajor_val_one]; show k.val = 0 * 128 + k.val; omega)

/-! ## Where each window's block sits -/

theorem at_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem at_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem at_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem at_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem at_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem at_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem at_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem at_8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

theorem tiles_lt (t : Fin cfg0.N) : t.val < 32 := lt_of_lt_of_eq t.isLt N_0

/-- Batch row of row p of tile t. -/
def rowOf (t : Fin cfg0.N) (p : Fin 4096) : Fin 131072 := ⟨4096 * t.val + p.val, by have := tiles_lt t; have := p.isLt; omega⟩

/-- Row p of the x tile (of the h tile) at tile t is batch row 4096 t + p of x (of h_prev) as launched. -/
theorem block_0 (c : Dev nD) (t : Fin cfg0.N) (p : Fin 4096) (k : Fin 128) :
    (blockAt m c 0 t : FVec Ideal S4096x128 .f32) (ix2 p k) = (m ((c : Thread nD τ).loc main_arg0)) (ix2 (rowOf t p) k) := by
  obtain ⟨e0, e1⟩ := at_0 t
  rw [← entry_main_arg0 m c]
  show (atEntry m c main_arg0 : FVec Ideal S131072x128 .f32) (((cfg0.win 0).blk t).view.emb (ix2 p k)) = _
  refine congrArg _ (funext fun d => Fin.ext ?_)
  match d with
  | ⟨0, _⟩ => show win0_0.index t (0 : Fin 2) * 4096 + 1 * p.val = 4096 * t.val + p.val; omega
  | ⟨1, _⟩ => show win0_0.index t (1 : Fin 2) * 128 + 1 * k.val = k.val; omega
theorem block_1 (c : Dev nD) (t : Fin cfg0.N) (p : Fin 4096) (k : Fin 128) :
    (blockAt m c 1 t : FVec Ideal S4096x128 .f32) (ix2 p k) = (m ((c : Thread nD τ).loc main_arg1)) (ix2 (rowOf t p) k) := by
  obtain ⟨e0, e1⟩ := at_1 t
  rw [← entry_main_arg1 m c]
  show (atEntry m c main_arg1 : FVec Ideal S131072x128 .f32) (((cfg0.win 1).blk t).view.emb (ix2 p k)) = _
  refine congrArg _ (funext fun d => Fin.ext ?_)
  match d with
  | ⟨0, _⟩ => show win0_1.index t (0 : Fin 2) * 4096 + 1 * p.val = 4096 * t.val + p.val; omega
  | ⟨1, _⟩ => show win0_1.index t (1 : Fin 2) * 128 + 1 * k.val = k.val; omega

/-- Window 2's block is the whole of its array at every tile. -/
theorem block_2 (c : Dev nD) (t : Fin cfg0.N) (a : Fin 128) (b : Fin 384) :
    (blockAt m c 2 t : FVec Ideal S128x384 .f32) (ix2 a b) = (atEntry m c main_v0 : FVec Ideal S128x384 .f32) (ix2 a b) := by
  obtain ⟨e0, e1⟩ := at_2 t
  show (atEntry m c main_v0 : FVec Ideal S128x384 .f32) (((cfg0.win 2).blk t).view.emb (ix2 a b)) = _
  refine congrArg _ (funext fun d => Fin.ext ?_)
  match d with
  | ⟨0, _⟩ => show win0_2.index t (0 : Fin 2) * 128 + 1 * a.val = a.val; omega
  | ⟨1, _⟩ => show win0_2.index t (1 : Fin 2) * 384 + 1 * b.val = b.val; omega
/-- Window 3's block is the whole of its array at every tile. -/
theorem block_3 (c : Dev nD) (t : Fin cfg0.N) (a : Fin 128) (b : Fin 256) :
    (blockAt m c 3 t : FVec Ideal S128x256 .f32) (ix2 a b) = (atEntry m c main_v1 : FVec Ideal S128x256 .f32) (ix2 a b) := by
  obtain ⟨e0, e1⟩ := at_3 t
  show (atEntry m c main_v1 : FVec Ideal S128x256 .f32) (((cfg0.win 3).blk t).view.emb (ix2 a b)) = _
  refine congrArg _ (funext fun d => Fin.ext ?_)
  match d with
  | ⟨0, _⟩ => show win0_3.index t (0 : Fin 2) * 128 + 1 * a.val = a.val; omega
  | ⟨1, _⟩ => show win0_3.index t (1 : Fin 2) * 256 + 1 * b.val = b.val; omega
/-- Window 4's block is the whole of its array at every tile. -/
theorem block_4 (c : Dev nD) (t : Fin cfg0.N) (a : Fin 128) (b : Fin 128) :
    (blockAt m c 4 t : FVec Ideal S128x128 .f32) (ix2 a b) = (atEntry m c main_arg9 : FVec Ideal S128x128 .f32) (ix2 a b) := by
  obtain ⟨e0, e1⟩ := at_4 t
  show (atEntry m c main_arg9 : FVec Ideal S128x128 .f32) (((cfg0.win 4).blk t).view.emb (ix2 a b)) = _
  refine congrArg _ (funext fun d => Fin.ext ?_)
  match d with
  | ⟨0, _⟩ => show win0_4.index t (0 : Fin 2) * 128 + 1 * a.val = a.val; omega
  | ⟨1, _⟩ => show win0_4.index t (1 : Fin 2) * 128 + 1 * b.val = b.val; omega
/-- Window 5's block is the whole of its array at every tile. -/
theorem block_5 (c : Dev nD) (t : Fin cfg0.N) (a : Fin 1) (b : Fin 128) :
    (blockAt m c 5 t : FVec Ideal S1x128 .f32) (ix2 a b) = (atEntry m c main_v2 : FVec Ideal S1x128 .f32) (ix2 a b) := by
  obtain ⟨e0, e1⟩ := at_5 t
  show (atEntry m c main_v2 : FVec Ideal S1x128 .f32) (((cfg0.win 5).blk t).view.emb (ix2 a b)) = _
  refine congrArg _ (funext fun d => Fin.ext ?_)
  match d with
  | ⟨0, _⟩ => show win0_5.index t (0 : Fin 2) * 1 + 1 * a.val = a.val; omega
  | ⟨1, _⟩ => show win0_5.index t (1 : Fin 2) * 128 + 1 * b.val = b.val; omega
/-- Window 6's block is the whole of its array at every tile. -/
theorem block_6 (c : Dev nD) (t : Fin cfg0.N) (a : Fin 1) (b : Fin 128) :
    (blockAt m c 6 t : FVec Ideal S1x128 .f32) (ix2 a b) = (atEntry m c main_v3 : FVec Ideal S1x128 .f32) (ix2 a b) := by
  obtain ⟨e0, e1⟩ := at_6 t
  show (atEntry m c main_v3 : FVec Ideal S1x128 .f32) (((cfg0.win 6).blk t).view.emb (ix2 a b)) = _
  refine congrArg _ (funext fun d => Fin.ext ?_)
  match d with
  | ⟨0, _⟩ => show win0_6.index t (0 : Fin 2) * 1 + 1 * a.val = a.val; omega
  | ⟨1, _⟩ => show win0_6.index t (1 : Fin 2) * 128 + 1 * b.val = b.val; omega
/-- Window 7's block is the whole of its array at every tile. -/
theorem block_7 (c : Dev nD) (t : Fin cfg0.N) (a : Fin 1) (b : Fin 128) :
    (blockAt m c 7 t : FVec Ideal S1x128 .f32) (ix2 a b) = (atEntry m c main_v4 : FVec Ideal S1x128 .f32) (ix2 a b) := by
  obtain ⟨e0, e1⟩ := at_7 t
  show (atEntry m c main_v4 : FVec Ideal S1x128 .f32) (((cfg0.win 7).blk t).view.emb (ix2 a b)) = _
  refine congrArg _ (funext fun d => Fin.ext ?_)
  match d with
  | ⟨0, _⟩ => show win0_7.index t (0 : Fin 2) * 1 + 1 * a.val = a.val; omega
  | ⟨1, _⟩ => show win0_7.index t (1 : Fin 2) * 128 + 1 * b.val = b.val; omega

theorem tileW (c : Dev nD) (t : Fin cfg0.N) : (blockAt m c 2 t : FVec Ideal S128x384 .f32) = fusedW m c := by
  refine funext fun (y : S128x384.Idx) => ?_
  obtain ⟨a, b, rfl⟩ : ∃ (a : Fin 128) (b : Fin 384), y = ix2 a b := ⟨y 0, y 1, eq_ix2 y⟩
  rw [block_2, entry_W]
theorem tileU (c : Dev nD) (t : Fin cfg0.N) : (blockAt m c 3 t : FVec Ideal S128x256 .f32) = fusedU m c := by
  refine funext fun (y : S128x256.Idx) => ?_
  obtain ⟨a, b, rfl⟩ : ∃ (a : Fin 128) (b : Fin 256), y = ix2 a b := ⟨y 0, y 1, eq_ix2 y⟩
  rw [block_3, entry_U]
theorem tileUh (c : Dev nD) (t : Fin cfg0.N) : (blockAt m c 4 t : FVec Ideal S128x128 .f32) = (m ((c : Thread nD τ).loc main_arg9)) := by
  refine funext fun (y : S128x128.Idx) => ?_
  obtain ⟨a, b, rfl⟩ : ∃ (a : Fin 128) (b : Fin 128), y = ix2 a b := ⟨y 0, y 1, eq_ix2 y⟩
  rw [block_4, entry_main_arg9]
theorem tile_bz (c : Dev nD) (t : Fin cfg0.N) (k : Fin 128) : (blockAt m c 5 t : FVec Ideal S1x128 .f32) (ix2 (0 : Fin 1) k) = (m ((c : Thread nD τ).loc main_arg4)) (ix1 k) := by
  rw [block_5, entry_bz, row_of_vector]
theorem tile_br (c : Dev nD) (t : Fin cfg0.N) (k : Fin 128) : (blockAt m c 6 t : FVec Ideal S1x128 .f32) (ix2 (0 : Fin 1) k) = (m ((c : Thread nD τ).loc main_arg7)) (ix1 k) := by
  rw [block_6, entry_br, row_of_vector]
theorem tile_bh (c : Dev nD) (t : Fin cfg0.N) (k : Fin 128) : (blockAt m c 7 t : FVec Ideal S1x128 .f32) (ix2 (0 : Fin 1) k) = (m ((c : Thread nD τ).loc main_arg10)) (ix1 k) := by
  rw [block_7, entry_bh, row_of_vector]

/-! ## A stored tile is a block of the cell function -/

/-- Over any tile contents that agree row by row with the batch arrays: entry (p, j) of the stored tile is the cell
    function at (r, j), r the batch row of tile row p. -/
theorem stored_is_cell (xb hb : FVec Ideal S4096x128 .f32) (Wb : FVec Ideal S128x384 .f32) (Ub : FVec Ideal S128x256 .f32)
    (Uhb : FVec Ideal S128x128 .f32) (bzb brb bhb : FVec Ideal S1x128 .f32)
    (x h : FVec Ideal S131072x128 .f32) (bz br bh : FVec Ideal S128 .f32) (r : Fin 131072) (p : Fin 4096) (j : Fin 128)
    (hx : ∀ k, xb (ix2 p k) = x (ix2 r k)) (hh : ∀ k, hb (ix2 p k) = h (ix2 r k))
    (hbz : ∀ k, bzb (ix2 (0 : Fin 1) k) = bz (ix1 k)) (hbr : ∀ k, brb (ix2 (0 : Fin 1) k) = br (ix1 k))
    (hbh : ∀ k, bhb (ix2 (0 : Fin 1) k) = bh (ix1 k)) :
    k0_pay1 (F := Ideal) hb (k0_pay4 (F := Ideal) xb hb Wb Ub bzb) (k0_pay5 (F := Ideal) xb hb Wb Ub Uhb brb bhb) (ix2 p j)
      = cell x h Wb Ub Uhb bz br bh (ix2 r j) := by
  rw [stored_at, funext hx, funext hh, funext hbz, funext hbr, funext hbh]
  rfl

theorem origin : (![0, 0] : Fin 2 → Nat) = fun _ => 0 := funext fun a => by fin_cases a <;> rfl

/-- What tile t writes back is block t of the cell function of the eleven arguments. -/
theorem written_back (c : Dev nD) (t : Fin cfg0.N) :
    (tiles m 0 c).flushed 8 t = ((cfg0.win 8).blk t).view.read (Elt Ideal) (cell (m ((c : Thread nD τ).loc main_arg0)) (m ((c : Thread nD τ).loc main_arg1)) (fusedW m c) (fusedU m c) (m ((c : Thread nD τ).loc main_arg9)) (m ((c : Thread nD τ).loc main_arg4)) (m ((c : Thread nD τ).loc main_arg7)) (m ((c : Thread nD τ).loc main_arg10))) := by
  show (cfg0.win 8).cut (grid0.coords t) ((tiles m 0 c).after 8 t) = _
  rw [left_8]
  unfold newTile
  rw [View.canon_unit_zero origin]
  simp only [View.ld_unit_zero (S := S4096x128) origin, View.ld_unit_zero (S := S128x384) origin, View.ld_unit_zero (S := S128x256) origin,
    View.ld_unit_zero (S := S128x128) origin, View.ld_unit_zero (S := S1x128) origin]
  refine funext fun (y : S4096x128.Idx) => ?_
  obtain ⟨p, j, rfl⟩ : ∃ (p : Fin 4096) (j : Fin 128), y = ix2 p j := ⟨y 0, y 1, eq_ix2 y⟩
  obtain ⟨e0, e1⟩ := at_8 t
  show k0_pay1 (F := Ideal) (blockAt m c 1 t) (k0_pay4 (F := Ideal) (blockAt m c 0 t) (blockAt m c 1 t) (blockAt m c 2 t) (blockAt m c 3 t) (blockAt m c 5 t))
      (k0_pay5 (F := Ideal) (blockAt m c 0 t) (blockAt m c 1 t) (blockAt m c 2 t) (blockAt m c 3 t) (blockAt m c 4 t) (blockAt m c 6 t) (blockAt m c 7 t)) (ix2 p j)
    = (cell (m ((c : Thread nD τ).loc main_arg0)) (m ((c : Thread nD τ).loc main_arg1)) (fusedW m c) (fusedU m c) (m ((c : Thread nD τ).loc main_arg9)) (m ((c : Thread nD τ).loc main_arg4)) (m ((c : Thread nD τ).loc main_arg7)) (m ((c : Thread nD τ).loc main_arg10))) (((cfg0.win 8).blk t).view.emb (ix2 p j))
  refine (stored_is_cell (blockAt m c 0 t) (blockAt m c 1 t) (blockAt m c 2 t) (blockAt m c 3 t) (blockAt m c 4 t) (blockAt m c 5 t) (blockAt m c 6 t) (blockAt m c 7 t)
    (m ((c : Thread nD τ).loc main_arg0)) (m ((c : Thread nD τ).loc main_arg1)) (m ((c : Thread nD τ).loc main_arg4)) (m ((c : Thread nD τ).loc main_arg7)) (m ((c : Thread nD τ).loc main_arg10)) (rowOf t p) p j
    (block_0 m c t p) (block_1 m c t p) (tile_bz m c t) (tile_br m c t) (tile_bh m c t)).trans ?_
  rw [tileW, tileU, tileUh]
  refine congrArg _ (funext fun d => Fin.ext ?_)
  match d with
  | ⟨0, _⟩ => show 4096 * t.val + p.val = win0_8.index t (0 : Fin 2) * 4096 + 1 * p.val; omega
  | ⟨1, _⟩ => show j.val = win0_8.index t (1 : Fin 2) * 128 + 1 * j.val; omega

/-! ## The tiles cover the batch -/

theorem in_tile (t : Fin cfg0.N) (i : S131072x128.Idx) :
    i ∈ ((cfg0.win 8).blk t).view.set ↔ ∀ a : Fin 2, win0_8.index t a * S4096x128.size a ≤ (i a).val ∧ (i a).val < win0_8.index t a * S4096x128.size a + S4096x128.size a := by
  show i ∈ ((View.whole main_v5).slice (win0_8.rect t)).set ↔ _
  rw [View.set_slice_whole, Rect.mem_set_unit]
  exact Iff.rfl

/-- Batch row b lies in tile b / 4096. -/
theorem covered (i : S131072x128.Idx) : ∃ t : Fin cfg0.N, (cfg0.win 8).flush t = true ∧ i ∈ ((cfg0.win 8).blk t).view.set := by
  have hi0 : (i 0).val < 131072 := (i 0).isLt
  have hi1 : (i 1).val < 128 := (i 1).isLt
  have hN : (i 0).val / 4096 < cfg0.N := by rw [show cfg0.N = 32 from N_0]; omega
  obtain ⟨e0, e1⟩ := at_8 ⟨(i 0).val / 4096, hN⟩
  refine ⟨⟨(i 0).val / 4096, hN⟩, flush0_8 _, ?_⟩
  rw [in_tile]
  intro a
  match a with
  | ⟨0, _⟩ =>
    show win0_8.index ⟨(i 0).val / 4096, hN⟩ (0 : Fin 2) * 4096 ≤ (i 0).val ∧ (i 0).val < win0_8.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_8.index ⟨(i 0).val / 4096, hN⟩ (1 : Fin 2) * 128 ≤ (i 1).val ∧ (i 1).val < win0_8.index ⟨(i 0).val / 4096, hN⟩ (1 : Fin 2) * 128 + 128
    rw [e1]; omega

/-! ## The result array, and the run -/

/-- After the run the result array is the cell function of the eleven arguments. -/
theorem result_array (c : Dev nD) : (tiles m 0 c).arrAt 8 cfg0.N = cell (m ((c : Thread nD τ).loc main_arg0)) (m ((c : Thread nD τ).loc main_arg1)) (fusedW m c) (fusedU m c) (m ((c : Thread nD τ).loc main_arg9)) (m ((c : Thread nD τ).loc main_arg4)) (m ((c : Thread nD τ).loc main_arg7)) (m ((c : Thread nD τ).loc main_arg10)) :=
  (tiles m 0 c).arrAt_eq_of_cover 8 _ (fun t _ => written_back m c t) covered

/-- Every weakly fair execution of the idealized kernel program terminates with the result at the cell function and
    the arguments as launched. -/
theorem run_cell : θ_run defs (onTc (τ := τ) (main (F := Ideal))) ⟨m, fun _ => 0, ρ⟩ fun r => ∀ c : Dev nD,
      r.2.mem ((c.tc : Thread nD τ).loc main_v5) = cell (m ((c.tc : Thread nD τ).loc main_arg0)) (m ((c.tc : Thread nD τ).loc main_arg1)) (fusedW m c) (fusedU m c) (m ((c.tc : Thread nD τ).loc main_arg9)) (m ((c.tc : Thread nD τ).loc main_arg4)) (m ((c.tc : Thread nD τ).loc main_arg7)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 8).trans (result_array m c), kept_in m (tiles m) (tiles_A m) r h c⟩) (run_to_tiles m ρ)

end Cert.KernelIdeal.Whole

end
-- ==== Proof.RefStages.lean ====
/-
  The reference program's run, one host operation at a time: this module only brings the generated
  run of the reference and its read-at-an-index lemmas into scope for the modules that compare the
  two programs.
-/
import proofs.«122658_j39994735460383_1_alg».proof.Proof.Gen.ReferenceIdeal.Run
import proofs.«122658_j39994735460383_1_alg».proof.Proof.Gen.ReferenceIdeal.Read
-- ==== Proof.RefIsCell.lean ====
/-
  The reference program's result is one step of the gated recurrent unit, entry by entry.

  At row b and column j the reference forms (x W)_{b,c} and (h U)_{b,c} as sums over the 128 shared coordinates, reads the
  column bands c = j, 128 + j, 256 + j of x W and c = j, 128 + j of h U, adds the bias entry j, and spells each gate as
  1 / (1 + e^(-t)), which is the logistic function of t. The candidate is tanh of the third band plus row b of r * h against
  column j of Uh plus bh_j, and the result is (1 - z) h + z c with the same word for 1 on both sides. Every stage read at the
  index (b, j) is literally the matching piece of the specification, so no algebraic law is used.
-/
import proofs.«122658_j39994735460383_1_alg».proof.Proof.RefStages
import proofs.«122658_j39994735460383_1_alg».proof.Proof.CellSpec

noncomputable section

namespace Cert.ReferenceIdeal.AsCell

open Cert.ReferenceIdeal Cert.ReferenceIdeal.Gen Cert.ReferenceIdeal.Read Cert.CellSpec Idealize.ShloMosaic Idealize.ShloMosaic.ValueIdx

/-! ## The two fused products at a row and a column -/

/-- Entry (b, c) of x W is row b of x against column c of W. -/
theorem xW_at (x0 : (⟨S131072x128, .f32⟩ : BufTy).Contents (Elt Ideal)) (x2 x5 x8 : (⟨S128x128, .f32⟩ : BufTy).Contents (Elt Ideal))
    (b : Fin 131072) (c : Fin 384) :
    val_main_v2 (F := Ideal) x0 x2 x5 x8 (ix2 b c)
      = timesW (fun k => x0 (ix2 b k)) (val_main_v0 (F := Ideal) x2 x5 x8) c := by
  rw [val_main_v2_apply]
  unfold timesW
  refine Finset.sum_congr rfl fun k _ => ?_
  have el : lidx_main_v2 (ix2 b c) k = ix2 b k :=
    funext fun a => Fin.ext (by match a with | ⟨0, _⟩ => rfl | ⟨1, _⟩ => rfl)
  have er : ridx_main_v2 (ix2 b c) k = ix2 k c :=
    funext fun a => Fin.ext (by match a with | ⟨0, _⟩ => rfl | ⟨1, _⟩ => rfl)
  rw [el, er]

/-- Entry (b, c) of h U is row b of h against column c of U. -/
theorem hU_at (x1 : (⟨S131072x128, .f32⟩ : BufTy).Contents (Elt Ideal)) (x3 x6 : (⟨S128x128, .f32⟩ : BufTy).Contents (Elt Ideal))
    (b : Fin 131072) (c : Fin 256) :
    val_main_v3 (F := Ideal) x1 x3 x6 (ix2 b c)
      = timesU (fun k => x1 (ix2 b k)) (val_main_v1 (F := Ideal) x3 x6) c := by
  rw [val_main_v3_apply]
  unfold timesU
  refine Finset.sum_congr rfl fun k _ => ?_
  have el : lidx_main_v3 (ix2 b c) k = ix2 b k :=
    funext fun a => Fin.ext (by match a with | ⟨0, _⟩ => rfl | ⟨1, _⟩ => rfl)
  have er : ridx_main_v3 (ix2 b c) k = ix2 k c :=
    funext fun a => Fin.ext (by match a with | ⟨0, _⟩ => rfl | ⟨1, _⟩ => rfl)
  rw [el, er]

/-! ## The column bands the slices read, and the bias rows the broadcasts read -/

theorem band0_W (b : Fin 131072) (j : Fin 128) : idx_main_v4 (ix2 b j) = ix2 b (wBand0 j) :=
  funext fun a => Fin.ext (by match a with | ⟨0, _⟩ => rfl | ⟨1, _⟩ => rfl)
theorem band0_U (b : Fin 131072) (j : Fin 128) : idx_main_v5 (ix2 b j) = ix2 b (uBand0 j) :=
  funext fun a => Fin.ext (by match a with | ⟨0, _⟩ => rfl | ⟨1, _⟩ => rfl)
theorem band1_W (b : Fin 131072) (j : Fin 128) : idx_main_v16 (ix2 b j) = ix2 b (wBand1 j) :=
  funext fun a => Fin.ext (by match a with | ⟨0, _⟩ => rfl | ⟨1, _⟩ => rfl)
theorem band1_U (b : Fin 131072) (j : Fin 128) : idx_main_v17 (ix2 b j) = ix2 b (uBand1 j) :=
  funext fun a => Fin.ext (by match a with | ⟨0, _⟩ => rfl | ⟨1, _⟩ => rfl)
theorem band2_W (b : Fin 131072) (j : Fin 128) : idx_main_v28 (ix2 b j) = ix2 b (wBand2 j) :=
  funext fun a => Fin.ext (by match a with | ⟨0, _⟩ => rfl | ⟨1, _⟩ => rfl)

theorem bias_z (b : Fin 131072) (j : Fin 128) : idx_main_v7 (idx_main_v8 (ix2 b j)) = ix1 j :=
  funext fun a => Fin.ext (by match a with | ⟨0, _⟩ => rfl)
theorem bias_r (b : Fin 131072) (j : Fin 128) : idx_main_v19 (idx_main_v20 (ix2 b j)) = ix1 j :=
  funext fun a => Fin.ext (by match a with | ⟨0, _⟩ => rfl)
theorem bias_h (b : Fin 131072) (j : Fin 128) : idx_main_v32 (idx_main_v33 (ix2 b j)) = ix1 j :=
  funext fun a => Fin.ext (by match a with | ⟨0, _⟩ => rfl)

/-! ## The gates -/

/-- The update gate at row b, column j. -/
theorem update_at (x0 x1 : (⟨S131072x128, .f32⟩ : BufTy).Contents (Elt Ideal)) (x2 x3 : (⟨S128x128, .f32⟩ : BufTy).Contents (Elt Ideal))
    (x4 : (⟨S128, .f32⟩ : BufTy).Contents (Elt Ideal)) (x5 x6 x8 : (⟨S128x128, .f32⟩ : BufTy).Contents (Elt Ideal))
    (b : Fin 131072) (j : Fin 128) :
    val_main_v15 (F := Ideal) x0 x1 x2 x3 x4 x5 x6 x8 (ix2 b j)
      = update (fun k => x0 (ix2 b k)) (fun k => x1 (ix2 b k)) (val_main_v0 (F := Ideal) x2 x5 x8) (val_main_v1 (F := Ideal) x3 x6)
          (fun k => x4 (ix1 k)) j := by
  rw [val_main_v15_apply, val_main_v14_apply, val_main_cst_0_apply, val_main_v13_apply, val_main_v12_apply, val_main_cst_apply,
    val_main_v11_apply, val_main_v10_apply, val_main_v9_apply, val_main_v6_apply, val_main_v4_apply, val_main_v5_apply,
    val_main_v8_apply, val_main_v7_apply, band0_W, band0_U, bias_z, xW_at, hU_at]
  simp only [Ideal.hostDivf_def, Ideal.ofBits_def, Ideal.addf_def, Ideal.hostUnary_exp_def, Ideal.hostNegf_def, Ideal.negf_def,
    logistic_spelt]
  rfl

/-- The reset gate at row b, column j. -/
theorem reset_at (x0 x1 : (⟨S131072x128, .f32⟩ : BufTy).Contents (Elt Ideal)) (x2 x3 x5 x6 : (⟨S128x128, .f32⟩ : BufTy).Contents (Elt Ideal))
    (x7 : (⟨S128, .f32⟩ : BufTy).Contents (Elt Ideal)) (x8 : (⟨S128x128, .f32⟩ : BufTy).Contents (Elt Ideal))
    (b : Fin 131072) (j : Fin 128) :
    val_main_v27 (F := Ideal) x0 x1 x2 x3 x5 x6 x7 x8 (ix2 b j)
      = reset (fun k => x0 (ix2 b k)) (fun k => x1 (ix2 b k)) (val_main_v0 (F := Ideal) x2 x5 x8) (val_main_v1 (F := Ideal) x3 x6)
          (fun k => x7 (ix1 k)) j := by
  rw [val_main_v27_apply, val_main_v26_apply, val_main_cst_2_apply, val_main_v25_apply, val_main_v24_apply, val_main_cst_1_apply,
    val_main_v23_apply, val_main_v22_apply, val_main_v21_apply, val_main_v18_apply, val_main_v16_apply, val_main_v17_apply,
    val_main_v20_apply, val_main_v19_apply, band1_W, band1_U, bias_r, xW_at, hU_at]
  simp only [Ideal.hostDivf_def, Ideal.ofBits_def, Ideal.addf_def, Ideal.hostUnary_exp_def, Ideal.hostNegf_def, Ideal.negf_def,
    logistic_spelt]
  rfl

/-! ## The candidate: the reset gate scales the hidden row before it meets Uh -/

/-- The candidate state at row b, column j. -/
theorem candidate_at (x0 x1 : (⟨S131072x128, .f32⟩ : BufTy).Contents (Elt Ideal)) (x2 x3 x5 x6 : (⟨S128x128, .f32⟩ : BufTy).Contents (Elt Ideal))
    (x7 : (⟨S128, .f32⟩ : BufTy).Contents (Elt Ideal)) (x8 x9 : (⟨S128x128, .f32⟩ : BufTy).Contents (Elt Ideal))
    (x10 : (⟨S128, .f32⟩ : BufTy).Contents (Elt Ideal)) (b : Fin 131072) (j : Fin 128) :
    val_main_v35 (F := Ideal) x0 x1 x2 x3 x5 x6 x7 x8 x9 x10 (ix2 b j)
      = candidate (fun k => x0 (ix2 b k)) (fun k => x1 (ix2 b k)) (val_main_v0 (F := Ideal) x2 x5 x8) (val_main_v1 (F := Ideal) x3 x6) x9
          (fun k => x7 (ix1 k)) (fun k => x10 (ix1 k)) j := by
  have hsum : val_main_v30 (F := Ideal) x0 x1 x2 x3 x5 x6 x7 x8 x9 (ix2 b j)
      = timesUh (fun k => reset (fun k => x0 (ix2 b k)) (fun k => x1 (ix2 b k)) (val_main_v0 (F := Ideal) x2 x5 x8)
          (val_main_v1 (F := Ideal) x3 x6) (fun k => x7 (ix1 k)) k * x1 (ix2 b k)) x9 j := by
    rw [val_main_v30_apply]
    unfold timesUh
    refine Finset.sum_congr rfl fun k _ => ?_
    have el : lidx_main_v30 (ix2 b j) k = ix2 b k :=
      funext fun a => Fin.ext (by match a with | ⟨0, _⟩ => rfl | ⟨1, _⟩ => rfl)
    have er : ridx_main_v30 (ix2 b j) k = ix2 k j :=
      funext fun a => Fin.ext (by match a with | ⟨0, _⟩ => rfl | ⟨1, _⟩ => rfl)
    rw [el, er, val_main_v29_apply, reset_at, Ideal.mulf_def]
  rw [val_main_v35_apply, val_main_v34_apply, val_main_v31_apply, val_main_v28_apply, val_main_v33_apply, val_main_v32_apply,
    band2_W, bias_h, xW_at, hsum]
  simp only [Ideal.hostUnary_tanh_def, Ideal.addf_def]
  rfl

/-! ## The whole step -/

/-- The reference's last stage, as a function of its eleven arguments, is the cell of the specification. -/
theorem result_is_cell
    (x0 x1 : (⟨S131072x128, .f32⟩ : BufTy).Contents (Elt Ideal)) (x2 x3 : (⟨S128x128, .f32⟩ : BufTy).Contents (Elt Ideal))
    (x4 : (⟨S128, .f32⟩ : BufTy).Contents (Elt Ideal)) (x5 x6 : (⟨S128x128, .f32⟩ : BufTy).Contents (Elt Ideal))
    (x7 : (⟨S128, .f32⟩ : BufTy).Contents (Elt Ideal)) (x8 x9 : (⟨S128x128, .f32⟩ : BufTy).Contents (Elt Ideal))
    (x10 : (⟨S128, .f32⟩ : BufTy).Contents (Elt Ideal)) :
    Cert.ReferenceIdeal.Read.val_main_v40 (F := Ideal) x0 x1 x2 x3 x4 x5 x6 x7 x8 x9 x10
      = Cert.CellSpec.cell x0 x1 (Cert.ReferenceIdeal.Read.val_main_v0 (F := Ideal) x2 x5 x8) (Cert.ReferenceIdeal.Read.val_main_v1 (F := Ideal) x3 x6) x9 x4 x7 x10 := by
  funext i
  obtain ⟨b, j, rfl⟩ : ∃ (b : Fin 131072) (j : Fin 128), i = ix2 b j := ⟨i 0, i 1, eq_ix2 i⟩
  rw [val_main_v40_apply, val_main_v38_apply, val_main_v39_apply, val_main_v37_apply, val_main_v36_apply, val_main_cst_3_apply,
    update_at, candidate_at]
  simp only [Ideal.addf_def, Ideal.mulf_def, Ideal.subf_def, Ideal.ofBits_def]
  rfl

end Cert.ReferenceIdeal.AsCell

end
-- ==== Proof.lean ====
/-
  A fused GRU cell step on the TPU against its jnp reference, over the extended reals.

  Both programs compute, for every batch row, the update gate z and the reset gate r as logistic functions of the
  row's products with the fused weights W = [Wz | Wr | Wh] and U = [Uz | Ur] plus a bias, the candidate
  c = tanh(x Wh + (r * h) Uh + bh), and the new state (1 - z) h + z c. The kernel does so tile by tile over 4096 batch
  rows with its operands narrowed to bf16 before each product; on the extended reals a change of float format is the
  identity and a product into a zero accumulator is the plain sum, so a tile's rows are the reference's rows. The
  kernel's logistic is one operation where the reference spells 1 / (1 + e^(-t)): the same function. No algebraic
  law and no finiteness of the inputs is used: the two results are one expression of the arguments.

  The three frames: the two kernel programs by the pipeline's frame run over proof data that name what every window's
  buffer holds at every tile; the reference by its run, whose result is dropped. The idealization rewrote nothing, so
  there is nothing to preserve.
-/
import proofs.«122658_j39994735460383_1_alg».proof.Defs
import proofs.«122658_j39994735460383_1_alg».proof.Proof.Gen.Kernel
import proofs.«122658_j39994735460383_1_alg».proof.Proof.Gen.KernelIdeal
import proofs.«122658_j39994735460383_1_alg».proof.Proof.Gen.ReferenceIdeal
import proofs.«122658_j39994735460383_1_alg».proof.Proof.Gen.Pre_finite_inputs
import proofs.«122658_j39994735460383_1_alg».proof.Proof.CellFrameBits
import proofs.«122658_j39994735460383_1_alg».proof.Proof.CellArray
import proofs.«122658_j39994735460383_1_alg».proof.Proof.RefStages
import proofs.«122658_j39994735460383_1_alg».proof.Proof.RefIsCell
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_bits : Cert.frame_Kernel := fun m ρ _ => Cert.Kernel.Cell.args_kept m ρ

/-- So does the idealized kernel program. -/
theorem frame_ideal : Cert.frame_KernelIdeal := fun m ρ _ => Cert.KernelIdeal.Cell.args_kept m ρ

/-- The reference runs and keeps its arguments: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eleven arguments, the idealized kernel and the idealized reference both end
    with the cell function of those arguments in their result. -/
theorem algebraic : Cert.algebraic_KernelIdeal_ReferenceIdeal := by
  intro m ρ m' ρ' _ hagree
  refine ⟨_, Cert.KernelIdeal.Whole.run_cell m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v40_eq, Cert.ReferenceIdeal.AsCell.result_is_cell, h0, h1, h2, h3, h4, h5, h6, h7, h8, h9, h10]
  rfl

theorem claim : Cert.Claim := ⟨Cert.Kernel.Gen.facts, Cert.KernelIdeal.Gen.facts, Cert.ReferenceIdeal.Gen.facts, Cert.Pre_finite_inputs.Gen.facts,
  frame_bits, frame_ideal, frame_reference, preserves, algebraic⟩

end Cert.Proof

end
